-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S32x4096x2 : Shape := ⟨3, ![32, 4096, 2]⟩
abbrev S768x256 : Shape := ⟨2, ![768, 256]⟩
abbrev S768 : Shape := ⟨1, ![768]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S32x1x512x512 .f32) (main_arg1 : IVec S32x4096x2 32) (main_arg2 : IVec S32x4096x2 32) (main_arg3 : FVec F S768x256 .f32) (main_arg4 : FVec F S768 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S768x256 .f32 := Host.absf main_arg3
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg4
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S32x1x512x512 : Shape := ⟨4, ![32, 1, 512, 512]⟩
abbrev S32x4096x2 : Shape := ⟨3, ![32, 4096, 2]⟩
abbrev S768x256 : Shape := ⟨2, ![768, 256]⟩
abbrev S768 : Shape := ⟨1, ![768]⟩
abbrev S_ : Shape := ⟨0, ![]⟩
abbrev S32x1x536x536 : Shape := ⟨4, ![32, 1, 536, 536]⟩
abbrev S32x4096x1 : Shape := ⟨3, ![32, 4096, 1]⟩
abbrev S32x4096 : Shape := ⟨2, ![32, 4096]⟩
abbrev S4096x1 : Shape := ⟨2, ![4096, 1]⟩
abbrev S32x4096x3 : Shape := ⟨3, ![32, 4096, 3]⟩
abbrev S32x4096x1x16x16 : Shape := ⟨5, ![32, 4096, 1, 16, 16]⟩
abbrev S131072x256 : Shape := ⟨2, ![131072, 256]⟩
abbrev S256x768 : Shape := ⟨2, ![256, 768]⟩
abbrev S1x768 : Shape := ⟨2, ![1, 768]⟩
abbrev S131072x768 : Shape := ⟨2, ![131072, 768]⟩
abbrev S2048x256 : Shape := ⟨2, ![2048, 256]⟩
abbrev S2048x768 : Shape := ⟨2, ![2048, 768]⟩
abbrev S32x4096x1x768 : Shape := ⟨4, ![32, 4096, 1, 768]⟩

abbrev nBuf : Space → Nat
  | .hbm => 41
  | .vmem => 6
  | .smem => 0
  | _ => 0

abbrev bufTy : (tb : Table) → Fin (tcTables nBuf tb) → BufTy
  | .hbm, ⟨0, _⟩ => ⟨S32x1x512x512, .f32⟩
  | .hbm, ⟨1, _⟩ => ⟨S32x4096x2, .i32⟩
  | .hbm, ⟨2, _⟩ => ⟨S32x4096x2, .i32⟩
  | .hbm, ⟨3, _⟩ => ⟨S768x256, .f32⟩
  | .hbm, ⟨4, _⟩ => ⟨S768, .f32⟩
  | .hbm, ⟨5, _⟩ => ⟨S_, .i32⟩
  | .hbm, ⟨6, _⟩ => ⟨S_, .f32⟩
  | .hbm, ⟨7, _⟩ => ⟨S32x1x536x536, .f32⟩
  | .hbm, ⟨8, _⟩ => ⟨S32x4096x2, .i32⟩
  | .hbm, ⟨9, _⟩ => ⟨S32x4096x1, .i32⟩
  | .hbm, ⟨10, _⟩ => ⟨S32x4096, .i32⟩
  | .hbm, ⟨11, _⟩ => ⟨S32x4096x1, .i32⟩
  | .hbm, ⟨12, _⟩ => ⟨S32x4096, .i32⟩
  | .hbm, ⟨13, _⟩ => ⟨S_, .i32⟩
  | .hbm, ⟨14, _⟩ => ⟨S32x4096, .i32⟩
  | .hbm, ⟨15, _⟩ => ⟨S32x4096, .i1⟩
  | .hbm, ⟨16, _⟩ => ⟨S_, .i32⟩
  | .hbm, ⟨17, _⟩ => ⟨S32x4096, .i32⟩
  | .hbm, ⟨18, _⟩ => ⟨S32x4096, .i32⟩
  | .hbm, ⟨19, _⟩ => ⟨S32x4096, .i32⟩
  | .hbm, ⟨20, _⟩ => ⟨S_, .i32⟩
  | .hbm, ⟨21, _⟩ => ⟨S32x4096, .i32⟩
  | .hbm, ⟨22, _⟩ => ⟨S32x4096, .i1⟩
  | .hbm, ⟨23, _⟩ => ⟨S_, .i32⟩
  | .hbm, ⟨24, _⟩ => ⟨S32x4096, .i32⟩
  | .hbm, ⟨25, _⟩ => ⟨S32x4096, .i32⟩
  | .hbm, ⟨26, _⟩ => ⟨S32x4096, .i32⟩
  | .hbm, ⟨27, _⟩ => ⟨S_, .i32⟩
  | .hbm, ⟨28, _⟩ => ⟨S4096x1, .i32⟩
  | .hbm, ⟨29, _⟩ => ⟨S32x4096x1, .i32⟩
  | .hbm, ⟨30, _⟩ => ⟨S32x4096x1, .i32⟩
  | .hbm, ⟨31, _⟩ => ⟨S32x4096x1, .i32⟩
  | .hbm, ⟨32, _⟩ => ⟨S32x4096x3, .i32⟩
  | .hbm, ⟨33, _⟩ => ⟨S32x4096x1x16x16, .f32⟩
  | .hbm, ⟨34, _⟩ => ⟨S131072x256, .f32⟩
  | .hbm, ⟨35, _⟩ => ⟨S131072x256, .bf16⟩
  | .hbm, ⟨36, _⟩ => ⟨S256x768, .f32⟩
  | .hbm, ⟨37, _⟩ => ⟨S256x768, .bf16⟩
  | .hbm, ⟨38, _⟩ => ⟨S1x768, .f32⟩
  | .hbm, ⟨39, _⟩ => ⟨S131072x768, .f32⟩
  | .hbm, ⟨40, _⟩ => ⟨S32x4096x1x768, .f32⟩
  | .local _ .vmem, ⟨0, _⟩ => ⟨S2048x256, .bf16⟩
  | .local _ .vmem, ⟨1, _⟩ => ⟨S2048x256, .bf16⟩
  | .local _ .vmem, ⟨2, _⟩ => ⟨S256x768, .bf16⟩
  | .local _ .vmem, ⟨3, _⟩ => ⟨S1x768, .f32⟩
  | .local _ .vmem, ⟨4, _⟩ => ⟨S2048x768, .f32⟩
  | .local _ .vmem, ⟨5, _⟩ => ⟨S2048x768, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S32x1x512x512_S32x1x536x536_000_000_12120_12120 : S32x1x512x512.Pads (![0, 0, 12, 12] : Fin 4 → Nat) ![0, 0, 12, 12] ![0, 0, 0, 0] S32x1x536x536
  h_S_ : 0 < S_.numel
  slices_S32x4096x2_S32x4096x1_0_0_0 : S32x4096x2.Slices ![0, 0, 0] S32x4096x1
  shapeCasts_S32x4096x1_S32x4096 : S32x4096x1.ShapeCasts S32x4096
  slices_S32x4096x2_S32x4096x1_0_0_1 : S32x4096x2.Slices ![0, 0, 1] S32x4096x1
  bcast_S_S32x4096 : S_.BroadcastsInDim S32x4096 (![] : Fin 0 → Fin S32x4096.rank)
  bcast_S_S4096x1 : S_.BroadcastsInDim S4096x1 (![] : Fin 0 → Fin S4096x1.rank)
  bcast_S32x4096_S32x4096x1_0_1 : S32x4096.BroadcastsInDim S32x4096x1 (![0, 1] : Fin 2 → Fin S32x4096x1.rank)
  bcast_S4096x1_S32x4096x1_1_2 : S4096x1.BroadcastsInDim S32x4096x1 (![1, 2] : Fin 2 → Fin S32x4096x1.rank)
  concatenates_S32x4096x1_S32x4096x1_S32x4096x1_S32x4096x3_d2 : Shape.Concatenates [S32x4096x1, S32x4096x1, S32x4096x1] S32x4096x3 2
  shapeCasts_S32x4096x1x16x16_S131072x256 : S32x4096x1x16x16.ShapeCasts S131072x256
  bitsLt_bf16_f32 : FTy.bits .bf16 < FTy.bits .f32
  transposes_S768x256_S256x768_1_0 : S768x256.Transposes [1, 0] S256x768
  shapeCasts_S768_S1x768 : S768.ShapeCasts S1x768
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  inb_S2048x768_S2048x768_0_0 : ∀ a, (![0, 0] : Fin 2 → Nat) a + S2048x768.size a ≤ S2048x768.size a
  h_S2048x768 : 0 < S2048x768.numel
  shapeCasts_S131072x768_S32x4096x1x768 : S131072x768.ShapeCasts S32x4096x1x768
  gather_S32x1x536x536_S32x4096x3_S32x4096x1x16x16_234_n_0_0_123_2_111616_wf : GatherDims.WF S32x1x536x536 S32x4096x3 S32x4096x1x16x16 [2, 3, 4] [] [0] [1, 2, 3] [0] 2 ![1, 1, 16, 16]
  dot_S2048x256_S256x768_S2048x768_1_0_0_1_n_n_wf : DotDims.WF S2048x256 S256x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .bf16 = 32 ∨ (Rect.block (s := S131072x256) S2048x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x768.size a ≤ S131072x768.size a
  hwx0_3 : ∀ i : grid0.Coords, EltTy.bits .f32 = 32 ∨ (Rect.block (s := S131072x768) S2048x768.size (cc0_transform_3 i) (hinb0_3 i)).WholeWords (EltTy.packing .f32)

variable [Facts₀]

def gather_S32x1x536x536_S32x4096x3_S32x4096x1x16x16_234_n_0_0_123_2_111616 : GatherDims S32x1x536x536 S32x4096x3 S32x4096x1x16x16 where
  offsetDims := [2, 3, 4]
  collapsedSliceDims := []
  operandBatchingDims := [0]
  startIndicesBatchingDims := [0]
  startIndexMap := [1, 2, 3]
  indexVectorDim := 2
  sliceSizes := ![1, 1, 16, 16]
  wf := gather_S32x1x536x536_S32x4096x3_S32x4096x1x16x16_234_n_0_0_123_2_111616_wf
def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf

abbrev win0_0 : Pipeline.Window sig grid0 :=
  Pipeline.Window.ofSpec (Memref.whole main_v23) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S2048x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1x512x512 : Shape := ⟨4, ![32, 1, 512, 512]⟩
abbrev S32x4096x2 : Shape := ⟨3, ![32, 4096, 2]⟩
abbrev S768x256 : Shape := ⟨2, ![768, 256]⟩
abbrev S768 : Shape := ⟨1, ![768]⟩
abbrev S_ : Shape := ⟨0, ![]⟩
abbrev S32x1x536x536 : Shape := ⟨4, ![32, 1, 536, 536]⟩
abbrev S32x4096x1 : Shape := ⟨3, ![32, 4096, 1]⟩
abbrev S32x4096 : Shape := ⟨2, ![32, 4096]⟩
abbrev S4096x1 : Shape := ⟨2, ![4096, 1]⟩
abbrev S32x4096x3 : Shape := ⟨3, ![32, 4096, 3]⟩
abbrev S32x4096x1x16x16 : Shape := ⟨5, ![32, 4096, 1, 16, 16]⟩
abbrev S32x4096x1x256 : Shape := ⟨4, ![32, 4096, 1, 256]⟩
abbrev S32x4096x1x768 : Shape := ⟨4, ![32, 4096, 1, 768]⟩
abbrev S1x1x1x768 : Shape := ⟨4, ![1, 1, 1, 768]⟩

abbrev nBuf : Space → Nat
  | .hbm => 39
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S32x4096x2, .i32⟩
  | .hbm, ⟨2, _⟩ => ⟨S32x4096x2, .i32⟩
  | .hbm, ⟨3, _⟩ => ⟨S768x256, .f32⟩
  | .hbm, ⟨4, _⟩ => ⟨S768, .f32⟩
  | .hbm, ⟨5, _⟩ => ⟨S_, .i32⟩
  | .hbm, ⟨6, _⟩ => ⟨S_, .f32⟩
  | .hbm, ⟨7, _⟩ => ⟨S32x1x536x536, .f32⟩
  | .hbm, ⟨8, _⟩ => ⟨S32x4096x2, .i32⟩
  | .hbm, ⟨9, _⟩ => ⟨S32x4096x1, .i32⟩
  | .hbm, ⟨10, _⟩ => ⟨S32x4096, .i32⟩
  | .hbm, ⟨11, _⟩ => ⟨S32x4096x1, .i32⟩
  | .hbm, ⟨12, _⟩ => ⟨S32x4096, .i32⟩
  | .hbm, ⟨13, _⟩ => ⟨S_, .i32⟩
  | .hbm, ⟨14, _⟩ => ⟨S32x4096, .i32⟩
  | .hbm, ⟨15, _⟩ => ⟨S32x4096, .i1⟩
  | .hbm, ⟨16, _⟩ => ⟨S_, .i32⟩
  | .hbm, ⟨17, _⟩ => ⟨S32x4096, .i32⟩
  | .hbm, ⟨18, _⟩ => ⟨S32x4096, .i32⟩
  | .hbm, ⟨19, _⟩ => ⟨S32x4096, .i32⟩
  | .hbm, ⟨20, _⟩ => ⟨S_, .i32⟩
  | .hbm, ⟨21, _⟩ => ⟨S32x4096, .i32⟩
  | .hbm, ⟨22, _⟩ => ⟨S32x4096, .i1⟩
  | .hbm, ⟨23, _⟩ => ⟨S_, .i32⟩
  | .hbm, ⟨24, _⟩ => ⟨S32x4096, .i32⟩
  | .hbm, ⟨25, _⟩ => ⟨S32x4096, .i32⟩
  | .hbm, ⟨26, _⟩ => ⟨S32x4096, .i32⟩
  | .hbm, ⟨27, _⟩ => ⟨S_, .i32⟩
  | .hbm, ⟨28, _⟩ => ⟨S4096x1, .i32⟩
  | .hbm, ⟨29, _⟩ => ⟨S32x4096x1, .i32⟩
  | .hbm, ⟨30, _⟩ => ⟨S32x4096x1, .i32⟩
  | .hbm, ⟨31, _⟩ => ⟨S32x4096x1, .i32⟩
  | .hbm, ⟨32, _⟩ => ⟨S32x4096x3, .i32⟩
  | .hbm, ⟨33, _⟩ => ⟨S32x4096x1x16x16, .f32⟩
  | .hbm, ⟨34, _⟩ => ⟨S32x4096x1x256, .f32⟩
  | .hbm, ⟨35, _⟩ => ⟨S32x4096x1x768, .f32⟩
  | .hbm, ⟨36, _⟩ => ⟨S1x1x1x768, .f32⟩
  | .hbm, ⟨37, _⟩ => ⟨S32x4096x1x768, .f32⟩
  | .hbm, ⟨38, _⟩ => ⟨S32x4096x1x768, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  pads_S32x1x512x512_S32x1x536x536_000_000_12120_12120 : S32x1x512x512.Pads (![0, 0, 12, 12] : Fin 4 → Nat) ![0, 0, 12, 12] ![0, 0, 0, 0] S32x1x536x536
  h_S_ : 0 < S_.numel
  slices_S32x4096x2_S32x4096x1_0_0_0 : S32x4096x2.Slices ![0, 0, 0] S32x4096x1
  shapeCasts_S32x4096x1_S32x4096 : S32x4096x1.ShapeCasts S32x4096
  slices_S32x4096x2_S32x4096x1_0_0_1 : S32x4096x2.Slices ![0, 0, 1] S32x4096x1
  bcast_S_S32x4096 : S_.BroadcastsInDim S32x4096 (![] : Fin 0 → Fin S32x4096.rank)
  bcast_S_S4096x1 : S_.BroadcastsInDim S4096x1 (![] : Fin 0 → Fin S4096x1.rank)
  bcast_S32x4096_S32x4096x1_0_1 : S32x4096.BroadcastsInDim S32x4096x1 (![0, 1] : Fin 2 → Fin S32x4096x1.rank)
  bcast_S4096x1_S32x4096x1_1_2 : S4096x1.BroadcastsInDim S32x4096x1 (![1, 2] : Fin 2 → Fin S32x4096x1.rank)
  concatenates_S32x4096x1_S32x4096x1_S32x4096x1_S32x4096x3_d2 : Shape.Concatenates [S32x4096x1, S32x4096x1, S32x4096x1] S32x4096x3 2
  shapeCasts_S32x4096x1x16x16_S32x4096x1x256 : S32x4096x1x16x16.ShapeCasts S32x4096x1x256
  bcast_S768_S1x1x1x768_3 : S768.BroadcastsInDim S1x1x1x768 (![3] : Fin 1 → Fin S1x1x1x768.rank)
  bcast_S1x1x1x768_S32x4096x1x768_0_1_2_3 : S1x1x1x768.BroadcastsInDim S32x4096x1x768 (![0, 1, 2, 3] : Fin 4 → Fin S32x4096x1x768.rank)
  gather_S32x1x536x536_S32x4096x3_S32x4096x1x16x16_234_n_0_0_123_2_111616_wf : GatherDims.WF S32x1x536x536 S32x4096x3 S32x4096x1x16x16 [2, 3, 4] [] [0] [1, 2, 3] [0] 2 ![1, 1, 16, 16]
  dot_S32x4096x1x256_S768x256_S32x4096x1x768_3_1_012_0_n_n_wf : DotDims.WF S32x4096x1x256 S768x256 S32x4096x1x768 [3] [1] [0, 1, 2] [0] [] []

variable [Facts₀]

def gather_S32x1x536x536_S32x4096x3_S32x4096x1x16x16_234_n_0_0_123_2_111616 : GatherDims S32x1x536x536 S32x4096x3 S32x4096x1x16x16 where
  offsetDims := [2, 3, 4]
  collapsedSliceDims := []
  operandBatchingDims := [0]
  startIndicesBatchingDims := [0]
  startIndexMap := [1, 2, 3]
  indexVectorDim := 2
  sliceSizes := ![1, 1, 16, 16]
  wf := gather_S32x1x536x536_S32x4096x3_S32x4096x1x16x16_234_n_0_0_123_2_111616_wf
def dot_S32x4096x1x256_S768x256_S32x4096x1x768_3_1_012_0_n_n : DotDims S32x4096x1x256 S768x256 S32x4096x1x768 where
  lhsContracting := [3]
  rhsContracting := [1]
  lhsNonContracting := [0, 1, 2]
  rhsNonContracting := [0]
  lhsBatch := []
  rhsBatch := []
  wf := dot_S32x4096x1x256_S768x256_S32x4096x1x768_3_1_012_0_n_n_wf

class Facts : Prop extends Facts₀ where

variable [Facts]
-- ==== Proof.KbAround.lean ====
/-
  @main of the kernel's program around its one matmul region: thirty-four host operations before it (the zero padding of
  the image, the start indices, the patch gather, the re-laying of patches as rows, the two format changes, the transposed
  weights, the bias as a row), the region, one reshape after it. This module reads the core's buffers as the region finds
  them, shows that no host operation writes an argument array or an array the region stages, and reduces the claim
  "the arguments end unchanged" to a run of the region whose arrays are those entry contents.
-/
import proofs.«164796_j17205638988437_1_alg».proof.Proof.Gen.Kernel.Launch
import proofs.«164796_j17205638988437_1_alg».proof.Proof.Gen.Kernel.Skeleton
import proofs.«164796_j17205638988437_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers as the region finds them -/

/-- Core `c`'s buffers after the three stretches of host operations that precede the region, as a valuation. -/
abbrev entryVal (c : Dev nD) : Valuation τ sig (Elt F) :=
  StableHlo.after (List.flatten [hostOps0, hostOps0_1, hostOps0_2]) (fun b => m (c, b))
/-- The same, read at a reference of the core. -/
abbrev atEntry (c : Dev nD) (b : Ref sig .tc) : Buf (Elt F) ((c : Thread nD τ).loc b) := entryVal m c (Proc.devRef .tc b)

theorem prefix0_fresh : (hostOps0 : List (HloOp τ sig (Elt F))).Forall fun op => op.fresh = ∅ := by
  simp only [List.Forall]; repeat' constructor
theorem prefix1_fresh : (hostOps0_1 : List (HloOp τ sig (Elt F))).Forall fun op => op.fresh = ∅ := by
  simp only [List.Forall]; repeat' constructor
theorem prefix2_fresh : (hostOps0_2 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- @main is the host prefix, the region, and the closing reshape: it reduces to the region entered at `atEntry` and
    continued by the reshape. -/
theorem main_around (𝒱₀ : Variants) :
    Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨prefix0_fresh, prefix1_fresh, prefix2_fresh⟩) main_chain

/-- The closing reshape touches unscoped buffers of the core only, -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem suffix_allocs : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp suffix_fresh) op hop
/-- and writes only its own result, which is none of the four arrays the region stages. -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## No host operation writes an argument -/

section Untouched
variable (a : Ref sig .tc)

/-- A reference that is the result of none of the thirty-four operations before the region is found as launched. -/
theorem atEntry_of_not_written (c : Dev nD)
    (h : ((List.flatten [hostOps0, hostOps0_1, hostOps0_2] : List (HloOp τ sig (Elt F))).Forall
      fun op => Proc.devRef .tc a ∉ op.writes)) :
    atEntry m c a = m ((c : Thread nD τ).loc a) :=
  StableHlo.after_of_forall_not_mem (b := Proc.devRef .tc a) _ _ (List.forall_iff_forall_mem.mp h)
end Untouched

theorem atEntry_arg0 (c : Dev nD) : atEntry m c main_arg0 = m ((c : Thread nD τ).loc main_arg0) :=
  atEntry_of_not_written m main_arg0 c (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem atEntry_arg1 (c : Dev nD) : atEntry m c main_arg1 = m ((c : Thread nD τ).loc main_arg1) :=
  atEntry_of_not_written m main_arg1 c (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem atEntry_arg2 (c : Dev nD) : atEntry m c main_arg2 = m ((c : Thread nD τ).loc main_arg2) :=
  atEntry_of_not_written m main_arg2 c (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem atEntry_arg3 (c : Dev nD) : atEntry m c main_arg3 = m ((c : Thread nD τ).loc main_arg3) :=
  atEntry_of_not_written m main_arg3 c (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem atEntry_arg4 (c : Dev nD) : atEntry m c main_arg4 = m ((c : Thread nD τ).loc main_arg4) :=
  atEntry_of_not_written m main_arg4 c (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))

/-- After the closing reshape too: an argument is neither the reshape's result nor an array of the region, so the
    buffers after the whole program hold it as the region found it. -/
theorem atExit_of_arg (dats : (p : Fin _) → (c : Dev nD) → Dat τ (Elt F) Unit ℕ (UR sig nD τ) ℕ (cfgs p) c) (c : Dev nD)
    (a : Ref sig .tc) (ha : a ≠ main_v28) (hw : ∀ w, Pipeline.arrRef spec0 w ≠ a) :
    Pipeline.afterTail₀ cfgs dats 0 (entryVal m) [hostOps1] c a = atEntry m c a := by
  unfold Pipeline.afterTail₀
  rw [StableHlo.after_of_forall_not_mem (b := Proc.devRef .tc a) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne ha)),
    Pipeline.withArrays_of_ne _ c (entryVal m c) _ a hw]

/-! ## The blocks of the staged arrays -/

/-- Window `w`'s block at grid point `t`, cut from its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The row block of patches is in its staging buffer at every point. -/
theorem rows_staged {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The weights, fetched once, are in their staging buffer at every point. -/
theorem weights_staged {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- The bias row, fetched once, is in its staging buffer at every point. -/
theorem bias_staged {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged, from a run of the region -/

/-- The five argument arrays bypass the region (it stages none of them) and no host operation writes them: a run that
    leaves every bypassing buffer as the closing reshape leaves it leaves them as launched. -/
theorem args_kept_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entryVal m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans
        ((atExit_of_arg m dats c main_arg0 (by decide) (by decide)).trans (atEntry_arg0 m c)),
      ((h c).2 main_arg1 (Pipeline.mem_restRefs_of main_arg1 (by decide) (by decide))).trans
        ((atExit_of_arg m dats c main_arg1 (by decide) (by decide)).trans (atEntry_arg1 m c)),
      ((h c).2 main_arg2 (Pipeline.mem_restRefs_of main_arg2 (by decide) (by decide))).trans
        ((atExit_of_arg m dats c main_arg2 (by decide) (by decide)).trans (atEntry_arg2 m c)),
      ((h c).2 main_arg3 (Pipeline.mem_restRefs_of main_arg3 (by decide) (by decide))).trans
        ((atExit_of_arg m dats c main_arg3 (by decide) (by decide)).trans (atEntry_arg3 m c)),
      ((h c).2 main_arg4 (Pipeline.mem_restRefs_of main_arg4 (by decide) (by decide))).trans
        ((atExit_of_arg m dats c main_arg4 (by decide) (by decide)).trans (atEntry_arg4 m c))⟩) h

end Cert.Kernel.Around

end
-- ==== Proof.KbBody.lean ====
/-
  One call of the matmul body: it loads the whole row block of patches, the whole weight matrix and the bias row, loads
  the output block (a value it never uses), and stores over the whole output block the product of the row block with
  the weights plus the bias broadcast down the rows. On whole staging buffers the call ends with the three inputs as
  they were and the output buffer holding exactly that one stored value.
-/
import proofs.«164796_j17205638988437_1_alg».proof.Proof.Gen.Kernel.Launch
import proofs.«164796_j17205638988437_1_alg».proof.Proof.Gen.Kernel.Skeleton
import proofs.«164796_j17205638988437_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of each staging buffer, as the rectangle the body's loads and its store address. -/
abbrev wholeRows : Rect S2048x256 := Rect.unit (s := S2048x256) ![0, 0] S2048x256.size inb_S2048x256_S2048x256_0_0
abbrev wholeWeights : Rect S256x768 := Rect.unit (s := S256x768) ![0, 0] S256x768.size inb_S256x768_S256x768_0_0
abbrev wholeBias : Rect S1x768 := Rect.unit (s := S1x768) ![0, 0] S1x768.size inb_S1x768_S1x768_0_0
abbrev wholeOut : Rect S2048x768 := Rect.unit (s := S2048x768) ![0, 0] S2048x768.size inb_S2048x768_S2048x768_0_0

/-- What the output's staging buffer holds after the body, from the three input blocks: its one store. -/
def stored (x : Vec F S2048x256 .bf16) (w : Vec F S256x768 .bf16) (b : Vec F S1x768 .f32) : Vec F S2048x768 .f32 :=
  View.canon [⟨wholeOut, k0_pay1 (View.ld x wholeRows) (View.ld w wholeWeights) (View.ld b wholeBias)⟩]

/-- The one store is over the whole block, so it covers every index of it. -/
theorem stored_covers (p0 : Vec F S2048x768 .f32) (y : S2048x768.Idx) :
    ∃ pc ∈ ([⟨wholeOut, p0⟩] : List (View.Piece (Elt F) S2048x768 .f32)), y ∈ pc.1.set :=
  View.cover_of_tiled [⟨wholeOut, p0⟩] S2048x768.size (by rfl) y

set_option maxHeartbeats 1000000 in
/-- The body's triple: inputs read and left in place, the output buffer (at any contents before) left at `stored`. -/
theorem body_runs (c : Dev nD) (E : Set ℕ) (i : grid0.Coords)
    (arg1 : Memref sig .tc .vmem S2048x256 .bf16) (harg1 : arg1.IsWhole) (arg2 : Memref sig .tc .vmem S256x768 .bf16) (harg2 : arg2.IsWhole)
    (arg3 : Memref sig .tc .vmem S1x768 .f32) (harg3 : arg3.IsWhole) (arg4 : Memref sig .tc .vmem S2048x768 .f32) (harg4 : arg4.IsWhole)
    (x : Vec F S2048x256 .bf16) (w : Vec F S256x768 .bf16) (b : Vec F S1x768 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (stored x w b)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

end Cert.Kernel.Body

end
-- ==== Proof.KbRegion.lean ====
/-
  The region's run. The proof data of its pipeline: the four staged arrays as the region finds them; after the body at a
  grid point the three inputs' staging buffers still at their blocks and the output's at the body's stored value of
  those blocks. With the body's triple at every point this gives the run of the whole program, each array of the
  pipeline at what its blocks were written with, and from it the claim that the five arguments end unchanged.
-/
import proofs.«164796_j17205638988437_1_alg».proof.Proof.KbAround
import proofs.«164796_j17205638988437_1_alg».proof.Proof.KbBody

set_option maxRecDepth 16384

noncomputable section

namespace Cert.Kernel.Region

open Cert.Kernel Cert.Kernel.Gen Cert.Kernel.Around Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data on core `c`. -/
def pdat (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => stored (blockAt m c 0 t) (blockAt m c 1 t) (blockAt m c 2 t)
  Φ _ := Pipeline.ΦA spec0 c
  q _ := fullShare
  owed _ := 0

theorem pdat_A (c : Dev nD) (w : Fin cfg0.W) : (pdat m 0 c).A w = atEntry m c (Pipeline.arrRef spec0 w) := by
  dsimp only [pdat]

theorem after_rows (c : Dev nD) (t : Fin cfg0.N) : (pdat m 0 c).after 0 t = blockAt m c 0 t := by dsimp only [pdat]
theorem after_weights (c : Dev nD) (t : Fin cfg0.N) : (pdat m 0 c).after 1 t = blockAt m c 1 t := by dsimp only [pdat]
theorem after_bias (c : Dev nD) (t : Fin cfg0.N) : (pdat m 0 c).after 2 t = blockAt m c 2 t := by dsimp only [pdat]
theorem after_out (c : Dev nD) (t : Fin cfg0.N) :
    (pdat m 0 c).after 3 t = stored (blockAt m c 0 t) (blockAt m c 1 t) (blockAt m c 2 t) := by dsimp only [pdat]

theorem before_rows (c : Dev nD) (t : Fin cfg0.N) (d) : (pdat m 0 c).before 0 t d = blockAt m c 0 t :=
  rows_staged m (pdat m 0 c) (pdat_A m c 0) (after_rows m c) t d
theorem before_weights (c : Dev nD) (t : Fin cfg0.N) (d) : (pdat m 0 c).before 1 t d = blockAt m c 1 t :=
  weights_staged m (pdat m 0 c) (pdat_A m c 1) (after_weights m c) t d
theorem before_bias (c : Dev nD) (t : Fin cfg0.N) (d) : (pdat m 0 c).before 2 t d = blockAt m c 2 t :=
  bias_staged m (pdat m 0 c) (pdat_A m c 2) (after_bias m c) t d

/-- What the body is called with at point `t`, window by window, -/
def callPre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d)))

/-- and what it returns. -/
def callPost (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t))

/-- The body at any point: the inputs' buffers hold their blocks, so the body's triple applies; the invariant and the
    core's debt pass through unread. -/
theorem call_runs (c : Dev nD) (t : Fin cfg0.N) :
    callPre m c t ⊢ wp frame (wpE (defs₀ (F := F)) Variants.none c none) Set.univ (bodyAt0 t) (fun _ => callPost m c t) := by
  unfold callPre callPost bodyAt0
  simp only [before_rows, before_weights, before_bias]
  rw [show (pdat m 0 c).Φ t.succ = (pdat m 0 c).Φ t.castSucc from rfl,
    show (pdat m 0 c).owesAt () t.succ = (pdat m 0 c).owesAt () t.castSucc from rfl,
    after_rows, after_weights, after_bias, after_out]
  iintro ⟨HΦ, Ho, ⟨%d0, H0⟩, ⟨%d1, H1⟩, ⟨%d2, H2⟩, ⟨%d3, H3⟩⟩
  iapply (body_runs c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (pdat (F := F) m 0 c) (defs₀ (F := F)) Variants.none () Set.univ := fun t => by
  rw [bigSep_W0, bigSep_W0]
  exact call_runs m c t

set_option backward.isDefEq.respectTransparency.types false in
/-- Every weakly fair execution of @main terminates; each array of the pipeline ends at what the proof data computes for
    it, and every other unscoped buffer as the closing reshape leaves it. -/
theorem run_main : θ_run defs (onTc (τ := τ) (main (F := F))) (s₀ m ρ)
    (Pipeline.FramePost cfgs (pdat m) 0 (Pipeline.afterTail₀ cfgs (pdat m) 0 (entryVal m) [hostOps1])) :=
  Pipeline.θ_run_frame_around cfgs (pdat m) (0 : Fin 1) launch0 defs₀ Variants.none m ρ main
    (hbody := fun c => (body_obligation m c).loose) (hshare := fun c => (pdat m 0 c).share_full fun _ => rfl)
    (howed := fun _ _ => rfl) (V₀ := entryVal m) (opss := [hostOps1]) (hsub := suffix_sub) (hfresh := suffix_allocs) (hkeep := suffix_keeps)
    (hmain := main_around m Variants.none) (hA := pdat_A m) (hΦ := fun _ _ => rfl)

/-- The program runs to the end, faults nowhere and leaves its five arguments unchanged. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_kept_of m ρ (pdat m) (run_main m ρ)

end Cert.Kernel.Region

end
-- ==== Proof.KiAround.lean ====
/-
  @main of the kernel's program around its one matmul region: thirty-four host operations before it (the zero padding of
  the image, the start indices, the patch gather, the re-laying of patches as rows, the two format changes, the transposed
  weights, the bias as a row), the region, one reshape after it. This module reads the core's buffers as the region finds
  them, shows that no host operation writes an argument array or an array the region stages, and reduces the claim
  "the arguments end unchanged" to a run of the region whose arrays are those entry contents.
-/
import proofs.«164796_j17205638988437_1_alg».proof.Proof.Gen.KernelIdeal.Launch
import proofs.«164796_j17205638988437_1_alg».proof.Proof.Gen.KernelIdeal.Skeleton
import proofs.«164796_j17205638988437_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers as the region finds them -/

/-- Core `c`'s buffers after the three stretches of host operations that precede the region, as a valuation. -/
abbrev entryVal (c : Dev nD) : Valuation τ sig (Elt F) :=
  StableHlo.after (List.flatten [hostOps0, hostOps0_1, hostOps0_2]) (fun b => m (c, b))
/-- The same, read at a reference of the core. -/
abbrev atEntry (c : Dev nD) (b : Ref sig .tc) : Buf (Elt F) ((c : Thread nD τ).loc b) := entryVal m c (Proc.devRef .tc b)

theorem prefix0_fresh : (hostOps0 : List (HloOp τ sig (Elt F))).Forall fun op => op.fresh = ∅ := by
  simp only [List.Forall]; repeat' constructor
theorem prefix1_fresh : (hostOps0_1 : List (HloOp τ sig (Elt F))).Forall fun op => op.fresh = ∅ := by
  simp only [List.Forall]; repeat' constructor
theorem prefix2_fresh : (hostOps0_2 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- @main is the host prefix, the region, and the closing reshape: it reduces to the region entered at `atEntry` and
    continued by the reshape. -/
theorem main_around (𝒱₀ : Variants) :
    Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨prefix0_fresh, prefix1_fresh, prefix2_fresh⟩) main_chain

/-- The closing reshape touches unscoped buffers of the core only, -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem suffix_allocs : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp suffix_fresh) op hop
/-- and writes only its own result, which is none of the four arrays the region stages. -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## No host operation writes an argument -/

section Untouched
variable (a : Ref sig .tc)

/-- A reference that is the result of none of the thirty-four operations before the region is found as launched. -/
theorem atEntry_of_not_written (c : Dev nD)
    (h : ((List.flatten [hostOps0, hostOps0_1, hostOps0_2] : List (HloOp τ sig (Elt F))).Forall
      fun op => Proc.devRef .tc a ∉ op.writes)) :
    atEntry m c a = m ((c : Thread nD τ).loc a) :=
  StableHlo.after_of_forall_not_mem (b := Proc.devRef .tc a) _ _ (List.forall_iff_forall_mem.mp h)
end Untouched

theorem atEntry_arg0 (c : Dev nD) : atEntry m c main_arg0 = m ((c : Thread nD τ).loc main_arg0) :=
  atEntry_of_not_written m main_arg0 c (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem atEntry_arg1 (c : Dev nD) : atEntry m c main_arg1 = m ((c : Thread nD τ).loc main_arg1) :=
  atEntry_of_not_written m main_arg1 c (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem atEntry_arg2 (c : Dev nD) : atEntry m c main_arg2 = m ((c : Thread nD τ).loc main_arg2) :=
  atEntry_of_not_written m main_arg2 c (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem atEntry_arg3 (c : Dev nD) : atEntry m c main_arg3 = m ((c : Thread nD τ).loc main_arg3) :=
  atEntry_of_not_written m main_arg3 c (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem atEntry_arg4 (c : Dev nD) : atEntry m c main_arg4 = m ((c : Thread nD τ).loc main_arg4) :=
  atEntry_of_not_written m main_arg4 c (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))

/-- After the closing reshape too: an argument is neither the reshape's result nor an array of the region, so the
    buffers after the whole program hold it as the region found it. -/
theorem atExit_of_arg (dats : (p : Fin _) → (c : Dev nD) → Dat τ (Elt F) Unit ℕ (UR sig nD τ) ℕ (cfgs p) c) (c : Dev nD)
    (a : Ref sig .tc) (ha : a ≠ main_v28) (hw : ∀ w, Pipeline.arrRef spec0 w ≠ a) :
    Pipeline.afterTail₀ cfgs dats 0 (entryVal m) [hostOps1] c a = atEntry m c a := by
  unfold Pipeline.afterTail₀
  rw [StableHlo.after_of_forall_not_mem (b := Proc.devRef .tc a) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne ha)),
    Pipeline.withArrays_of_ne _ c (entryVal m c) _ a hw]

/-! ## The blocks of the staged arrays -/

/-- Window `w`'s block at grid point `t`, cut from its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The row block of patches is in its staging buffer at every point. -/
theorem rows_staged {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The weights, fetched once, are in their staging buffer at every point. -/
theorem weights_staged {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- The bias row, fetched once, is in its staging buffer at every point. -/
theorem bias_staged {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged, from a run of the region -/

/-- The five argument arrays bypass the region (it stages none of them) and no host operation writes them: a run that
    leaves every bypassing buffer as the closing reshape leaves it leaves them as launched. -/
theorem args_kept_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entryVal m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans
        ((atExit_of_arg m dats c main_arg0 (by decide) (by decide)).trans (atEntry_arg0 m c)),
      ((h c).2 main_arg1 (Pipeline.mem_restRefs_of main_arg1 (by decide) (by decide))).trans
        ((atExit_of_arg m dats c main_arg1 (by decide) (by decide)).trans (atEntry_arg1 m c)),
      ((h c).2 main_arg2 (Pipeline.mem_restRefs_of main_arg2 (by decide) (by decide))).trans
        ((atExit_of_arg m dats c main_arg2 (by decide) (by decide)).trans (atEntry_arg2 m c)),
      ((h c).2 main_arg3 (Pipeline.mem_restRefs_of main_arg3 (by decide) (by decide))).trans
        ((atExit_of_arg m dats c main_arg3 (by decide) (by decide)).trans (atEntry_arg3 m c)),
      ((h c).2 main_arg4 (Pipeline.mem_restRefs_of main_arg4 (by decide) (by decide))).trans
        ((atExit_of_arg m dats c main_arg4 (by decide) (by decide)).trans (atEntry_arg4 m c))⟩) h

end Cert.KernelIdeal.Around

end
-- ==== Proof.KiBody.lean ====
/-
  One call of the matmul body: it loads the whole row block of patches, the whole weight matrix and the bias row, loads
  the output block (a value it never uses), and stores over the whole output block the product of the row block with
  the weights plus the bias broadcast down the rows. On whole staging buffers the call ends with the three inputs as
  they were and the output buffer holding exactly that one stored value.
-/
import proofs.«164796_j17205638988437_1_alg».proof.Proof.Gen.KernelIdeal.Launch
import proofs.«164796_j17205638988437_1_alg».proof.Proof.Gen.KernelIdeal.Skeleton
import proofs.«164796_j17205638988437_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of each staging buffer, as the rectangle the body's loads and its store address. -/
abbrev wholeRows : Rect S2048x256 := Rect.unit (s := S2048x256) ![0, 0] S2048x256.size inb_S2048x256_S2048x256_0_0
abbrev wholeWeights : Rect S256x768 := Rect.unit (s := S256x768) ![0, 0] S256x768.size inb_S256x768_S256x768_0_0
abbrev wholeBias : Rect S1x768 := Rect.unit (s := S1x768) ![0, 0] S1x768.size inb_S1x768_S1x768_0_0
abbrev wholeOut : Rect S2048x768 := Rect.unit (s := S2048x768) ![0, 0] S2048x768.size inb_S2048x768_S2048x768_0_0

/-- What the output's staging buffer holds after the body, from the three input blocks: its one store. -/
def stored (x : Vec F S2048x256 .bf16) (w : Vec F S256x768 .bf16) (b : Vec F S1x768 .f32) : Vec F S2048x768 .f32 :=
  View.canon [⟨wholeOut, k0_pay1 (View.ld x wholeRows) (View.ld w wholeWeights) (View.ld b wholeBias)⟩]

/-- The one store is over the whole block, so it covers every index of it. -/
theorem stored_covers (p0 : Vec F S2048x768 .f32) (y : S2048x768.Idx) :
    ∃ pc ∈ ([⟨wholeOut, p0⟩] : List (View.Piece (Elt F) S2048x768 .f32)), y ∈ pc.1.set :=
  View.cover_of_tiled [⟨wholeOut, p0⟩] S2048x768.size (by rfl) y

set_option maxHeartbeats 1000000 in
/-- The body's triple: inputs read and left in place, the output buffer (at any contents before) left at `stored`. -/
theorem body_runs (c : Dev nD) (E : Set ℕ) (i : grid0.Coords)
    (arg1 : Memref sig .tc .vmem S2048x256 .bf16) (harg1 : arg1.IsWhole) (arg2 : Memref sig .tc .vmem S256x768 .bf16) (harg2 : arg2.IsWhole)
    (arg3 : Memref sig .tc .vmem S1x768 .f32) (harg3 : arg3.IsWhole) (arg4 : Memref sig .tc .vmem S2048x768 .f32) (harg4 : arg4.IsWhole)
    (x : Vec F S2048x256 .bf16) (w : Vec F S256x768 .bf16) (b : Vec F S1x768 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (stored x w b)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

end Cert.KernelIdeal.Body

end
-- ==== Proof.KiRegion.lean ====
/-
  The region's run. The proof data of its pipeline: the four staged arrays as the region finds them; after the body at a
  grid point the three inputs' staging buffers still at their blocks and the output's at the body's stored value of
  those blocks. With the body's triple at every point this gives the run of the whole program, each array of the
  pipeline at what its blocks were written with, and from it the claim that the five arguments end unchanged.
-/
import proofs.«164796_j17205638988437_1_alg».proof.Proof.KiAround
import proofs.«164796_j17205638988437_1_alg».proof.Proof.KiBody

set_option maxRecDepth 16384

noncomputable section

namespace Cert.KernelIdeal.Region

open Cert.KernelIdeal Cert.KernelIdeal.Gen Cert.KernelIdeal.Around Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data on core `c`. -/
def pdat (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => stored (blockAt m c 0 t) (blockAt m c 1 t) (blockAt m c 2 t)
  Φ _ := Pipeline.ΦA spec0 c
  q _ := fullShare
  owed _ := 0

theorem pdat_A (c : Dev nD) (w : Fin cfg0.W) : (pdat m 0 c).A w = atEntry m c (Pipeline.arrRef spec0 w) := by
  dsimp only [pdat]

theorem after_rows (c : Dev nD) (t : Fin cfg0.N) : (pdat m 0 c).after 0 t = blockAt m c 0 t := by dsimp only [pdat]
theorem after_weights (c : Dev nD) (t : Fin cfg0.N) : (pdat m 0 c).after 1 t = blockAt m c 1 t := by dsimp only [pdat]
theorem after_bias (c : Dev nD) (t : Fin cfg0.N) : (pdat m 0 c).after 2 t = blockAt m c 2 t := by dsimp only [pdat]
theorem after_out (c : Dev nD) (t : Fin cfg0.N) :
    (pdat m 0 c).after 3 t = stored (blockAt m c 0 t) (blockAt m c 1 t) (blockAt m c 2 t) := by dsimp only [pdat]

theorem before_rows (c : Dev nD) (t : Fin cfg0.N) (d) : (pdat m 0 c).before 0 t d = blockAt m c 0 t :=
  rows_staged m (pdat m 0 c) (pdat_A m c 0) (after_rows m c) t d
theorem before_weights (c : Dev nD) (t : Fin cfg0.N) (d) : (pdat m 0 c).before 1 t d = blockAt m c 1 t :=
  weights_staged m (pdat m 0 c) (pdat_A m c 1) (after_weights m c) t d
theorem before_bias (c : Dev nD) (t : Fin cfg0.N) (d) : (pdat m 0 c).before 2 t d = blockAt m c 2 t :=
  bias_staged m (pdat m 0 c) (pdat_A m c 2) (after_bias m c) t d

/-- What the body is called with at point `t`, window by window, -/
def callPre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d)))

/-- and what it returns. -/
def callPost (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t))

/-- The body at any point: the inputs' buffers hold their blocks, so the body's triple applies; the invariant and the
    core's debt pass through unread. -/
theorem call_runs (c : Dev nD) (t : Fin cfg0.N) :
    callPre m c t ⊢ wp frame (wpE (defs₀ (F := F)) Variants.none c none) Set.univ (bodyAt0 t) (fun _ => callPost m c t) := by
  unfold callPre callPost bodyAt0
  simp only [before_rows, before_weights, before_bias]
  rw [show (pdat m 0 c).Φ t.succ = (pdat m 0 c).Φ t.castSucc from rfl,
    show (pdat m 0 c).owesAt () t.succ = (pdat m 0 c).owesAt () t.castSucc from rfl,
    after_rows, after_weights, after_bias, after_out]
  iintro ⟨HΦ, Ho, ⟨%d0, H0⟩, ⟨%d1, H1⟩, ⟨%d2, H2⟩, ⟨%d3, H3⟩⟩
  iapply (body_runs c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (pdat (F := F) m 0 c) (defs₀ (F := F)) Variants.none () Set.univ := fun t => by
  rw [bigSep_W0, bigSep_W0]
  exact call_runs m c t

set_option backward.isDefEq.respectTransparency.types false in
/-- Every weakly fair execution of @main terminates; each array of the pipeline ends at what the proof data computes for
    it, and every other unscoped buffer as the closing reshape leaves it. -/
theorem run_main : θ_run defs (onTc (τ := τ) (main (F := F))) (s₀ m ρ)
    (Pipeline.FramePost cfgs (pdat m) 0 (Pipeline.afterTail₀ cfgs (pdat m) 0 (entryVal m) [hostOps1])) :=
  Pipeline.θ_run_frame_around cfgs (pdat m) (0 : Fin 1) launch0 defs₀ Variants.none m ρ main
    (hbody := fun c => (body_obligation m c).loose) (hshare := fun c => (pdat m 0 c).share_full fun _ => rfl)
    (howed := fun _ _ => rfl) (V₀ := entryVal m) (opss := [hostOps1]) (hsub := suffix_sub) (hfresh := suffix_allocs) (hkeep := suffix_keeps)
    (hmain := main_around m Variants.none) (hA := pdat_A m) (hΦ := fun _ _ => rfl)

/-- The program runs to the end, faults nowhere and leaves its five arguments unchanged. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_kept_of m ρ (pdat m) (run_main m ρ)

end Cert.KernelIdeal.Region

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibNary3.lean ====
/-
  A three-operand `nary` operation (a concatenate of three pieces) read at its result buffer with each operand's
  contents at its own literal reference, so that a rewriting pass can go on into the operands; the library states
  this for four operands.
-/
import Idealize.ShloMosaic.Lib.StableHlo.Run

namespace Idealize.ShloMosaic.StableHlo

variable {τ : Topo} {sig : RefSig} {Val : EltTy → Type}
variable {x a b y : Ref sig .tc}

/-- The result of `nary ![x, a, b] y f` is `f` of the three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for a simplifier pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.KiValue.lean ====
/-
  What the kernel's program computes, at the extended reals. The region multiplies the rows of patches by the weight
  matrix and adds the bias row, block of 2048 rows by block; its sixty-four blocks tile the result array, so the
  array ends at   (n, e) ↦ Σ_k X(n, k) · W(k, e) + b(0, e)   of the three arrays the region finds, and the closing
  reshape re-lays it as [32, 4096, 1, 768]. The three arrays themselves are read back through the host operations
  before the region: X the gathered patches laid out as rows (the change of float format is the identity here),
  W the transposed weights, b the bias as a row.
-/
import proofs.«164796_j17205638988437_1_alg».proof.Proof.KiRegion
import proofs.«164796_j17205638988437_1_alg».proof.Proof.LibDotRead
import proofs.«164796_j17205638988437_1_alg».proof.Proof.LibNary3
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.KernelIdeal.Result

open Cert.KernelIdeal Cert.KernelIdeal.Gen Cert.KernelIdeal.Around Cert.KernelIdeal.Body Cert.KernelIdeal.Region
open Idealize.ShloMosaic Idealize.ShloMosaic.TcCoe Idealize.SL.Sem Idealize.ShloMosaic.ValueIdx
open Idealize.ShloMosaic.Pipeline (Dat)

/-! ## Rows times weights plus a bias row -/

/-- (n, e) ↦ Σ_k X(n, k) · W(k, e) + b(0, e), for any number of rows. -/
def affine {R : Nat} (X : (⟨2, ![R, 256]⟩ : Shape).Idx → EReal) (W : (⟨2, ![256, 768]⟩ : Shape).Idx → EReal)
    (b : (⟨2, ![1, 768]⟩ : Shape).Idx → EReal) : (⟨2, ![R, 768]⟩ : Shape).Idx → EReal :=
  fun i => (∑ k : Fin 256, X (ix2 (⟨(i 0).val, idx2_lt0 i⟩ : Fin R) k) * W (ix2 k (⟨(i 1).val, idx2_lt1 i⟩ : Fin 768)))
    + b (ix2 (0 : Fin 1) (⟨(i 1).val, idx2_lt1 i⟩ : Fin 768))

theorem affine_ix2 {R : Nat} (X : (⟨2, ![R, 256]⟩ : Shape).Idx → EReal) (W : (⟨2, ![256, 768]⟩ : Shape).Idx → EReal)
    (b : (⟨2, ![1, 768]⟩ : Shape).Idx → EReal) (p : Fin R) (q : Fin 768) :
    affine X W b (ix2 p q) = (∑ k : Fin 256, X (ix2 p k) * W (ix2 k q)) + b (ix2 (0 : Fin 1) q) := rfl

/-! ## The body's stored value at an index -/

/-- The product into the zero accumulator, at (p, q): the sum over the contracted coordinate. -/
theorem product_ix2 (x : FVec Ideal S2048x256 .bf16) (w : FVec Ideal S256x768 .bf16) (p : Fin 2048) (q : Fin 768) :
    matmul dot_S2048x256_S256x768_S2048x768_1_0_0_1_n_n none x w (constant (F := Ideal) S2048x768 .f32 0x00000000#32) (ix2 p q)
      = ∑ k : Fin 256, x (ix2 p k) * w (ix2 k q) :=
  (Ideal.matmul_constant_zero_apply dot_S2048x256_S256x768_S2048x768_1_0_0_1_n_n none x w (ix2 p q)).trans
    (Cert.DotRead.sum_contr_plain dot_S2048x256_S256x768_S2048x768_1_0_0_1_n_n_wf x w p q)

/-- The bias row broadcast down the 2048 rows, at (p, q): the row's entry q. -/
theorem biasRow_ix2 (b : FVec Ideal S1x768 .f32) (p : Fin 2048) (q : Fin 768) :
    broadcastTo S2048x768 b broadcasts_S1x768_S2048x768 (ix2 p q) = b (ix2 (0 : Fin 1) q) :=
  broadcastTo_apply b broadcasts_S1x768_S2048x768 (ix2 p q) (ix2 (0 : Fin 1) q) (fun a => match a with
    | ⟨0, _⟩ => by show (0 : Nat) = if (1 : Nat) = 1 then 0 else _; rw [if_pos rfl]
    | ⟨1, _⟩ => by show q.val = if (768 : Nat) = 1 then 0 else _; rw [if_neg (by decide)]; rfl)

/-- The body's one stored value, entry by entry. -/
theorem payload_ix2 (x : Vec Ideal S2048x256 .bf16) (w : Vec Ideal S256x768 .bf16) (b : Vec Ideal S1x768 .f32)
    (p : Fin 2048) (q : Fin 768) :
    k0_pay1 (F := Ideal) x w b (ix2 p q) = affine x w b (ix2 p q) := by
  unfold k0_pay1
  simp only [shapeCast_self]
  exact congrArg₂ (· + ·) (product_ix2 x w p q) (biasRow_ix2 b p q)

/-! ## The blocks, as parts of the arrays -/

variable (m : (ℓ : Loc nD τ sig) → Buf (Elt Ideal) ℓ) (ρ : Dev nD → PrngReg)

/-- The three arrays the region stages as inputs, as it finds them. -/
abbrev rowsArr (c : Dev nD) : S131072x256.Idx → EReal := atEntry m c main_v23
abbrev weightsArr (c : Dev nD) : S256x768.Idx → EReal := atEntry m c main_v25
abbrev biasArr (c : Dev nD) : S1x768.Idx → EReal := atEntry m c main_v26

theorem zero_offsets : (![0, 0] : Fin 2 → Nat) = fun _ => 0 := funext fun a => by fin_cases a <;> rfl

/-- The block indices over the grid: point t takes row block t of the patches and of the result; the weights and the
    bias are one block each. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem rows_at (c : Dev nD) (t : Fin cfg0.N) (p : Fin 2048) (k : Fin 256) (r : Fin 131072) (hr : r.val = t.val * 2048 + p.val) :
    (blockAt m c 0 t : Vec Ideal S2048x256 .bf16) (ix2 p k) = rowsArr m c (ix2 r k) := by
  obtain ⟨e0, e1, -⟩ := block_indices t
  unfold blockAt
  rw [View.read_apply]
  show atEntry m c main_v23 _ = atEntry m c main_v23 _
  congr 1
  funext a
  apply Fin.ext
  match a with
  | ⟨0, _⟩ => show win0_0.index t (0 : Fin 2) * 2048 + 1 * p.val = r.val; rw [e0, hr]; omega
  | ⟨1, _⟩ => show win0_0.index t (1 : Fin 2) * 256 + 1 * k.val = k.val; rw [e1]; omega

theorem weights_at (c : Dev nD) (t : Fin cfg0.N) (k : Fin 256) (q : Fin 768) :
    (blockAt m c 1 t : Vec Ideal S256x768 .bf16) (ix2 k q) = weightsArr m c (ix2 k q) := by
  obtain ⟨-, -, e2, e3, -⟩ := block_indices t
  unfold blockAt
  rw [View.read_apply]
  show atEntry m c main_v25 _ = atEntry m c main_v25 _
  congr 1
  funext a
  apply Fin.ext
  match a with
  | ⟨0, _⟩ => show win0_1.index t (0 : Fin 2) * 256 + 1 * k.val = k.val; rw [e2]; omega
  | ⟨1, _⟩ => show win0_1.index t (1 : Fin 2) * 768 + 1 * q.val = q.val; rw [e3]; omega

theorem bias_at (c : Dev nD) (t : Fin cfg0.N) (q : Fin 768) :
    (blockAt m c 2 t : Vec Ideal S1x768 .f32) (ix2 (0 : Fin 1) q) = biasArr m c (ix2 (0 : Fin 1) q) := by
  obtain ⟨-, -, -, -, e4, e5, -⟩ := block_indices t
  unfold blockAt
  rw [View.read_apply]
  show atEntry m c main_v26 _ = atEntry m c main_v26 _
  congr 1
  funext a
  apply Fin.ext
  match a with
  | ⟨0, _⟩ => show win0_2.index t (0 : Fin 2) * 1 + 1 * 0 = 0; rw [e4]
  | ⟨1, _⟩ => show win0_2.index t (1 : Fin 2) * 768 + 1 * q.val = q.val; rw [e5]; omega

/-- What the body stores at point t, at entry j of the block, is entry (2048 t + j₀, j₁) of the whole product. -/
theorem block_value (c : Dev nD) (t : Fin cfg0.N) (j : S2048x768.Idx) (i : S131072x768.Idx)
    (h0 : (i 0).val = t.val * 2048 + (j 0).val) (h1 : (i 1).val = (j 1).val) :
    k0_pay1 (F := Ideal) (blockAt m c 0 t) (blockAt m c 1 t) (blockAt m c 2 t) j
      = affine (rowsArr m c) (weightsArr m c) (biasArr m c) i := by
  obtain ⟨p, q, rfl⟩ : ∃ (p : Fin 2048) (q : Fin 768), j = ix2 p q := ⟨j 0, j 1, eq_ix2 j⟩
  obtain ⟨r, s, rfl⟩ : ∃ (r : Fin 131072) (s : Fin 768), i = ix2 r s := ⟨i 0, i 1, eq_ix2 i⟩
  obtain rfl : s = q := Fin.ext h1
  refine (payload_ix2 (blockAt m c 0 t) (blockAt m c 1 t) (blockAt m c 2 t) p s).trans ?_
  rw [affine_ix2, affine_ix2]
  exact congrArg₂ (· + ·)
    (Finset.sum_congr rfl fun k _ => congrArg₂ (· * ·) (rows_at m c t p k r h0) (weights_at m c t k s))
    (bias_at m c t s)

/-! ## From the blocks to the array -/

/-- What point t writes back is block t of the whole product. -/
theorem flushed_eq (c : Dev nD) (t : Fin cfg0.N) :
    (pdat m 0 c).flushed 3 t
      = ((cfg0.win 3).blk t).view.read (Elt Ideal) (affine (rowsArr m c) (weightsArr m c) (biasArr m c)) := by
  obtain ⟨-, -, -, -, -, -, e6, e7⟩ := block_indices t
  show (cfg0.win 3).cut (grid0.coords t) ((pdat m 0 c).after 3 t) = _
  rw [after_out]
  unfold stored
  rw [View.canon_unit_zero zero_offsets]
  simp only [View.ld_unit_zero (S := S2048x256) zero_offsets, View.ld_unit_zero (S := S256x768) zero_offsets,
    View.ld_unit_zero (S := S1x768) zero_offsets]
  funext j
  rw [View.read_apply]
  refine block_value m c t j _ ?_ ?_
  · show win0_3.index t (0 : Fin 2) * 2048 + 1 * (j 0).val = t.val * 2048 + (j 0).val
    rw [e6]; omega
  · show win0_3.index t (1 : Fin 2) * 768 + 1 * (j 1).val = (j 1).val
    rw [e7]; omega

/-- An index of the result array lies in point t's block iff each coordinate is in the block's range on its axis. -/
theorem mem_block (t : Fin cfg0.N) (i : S131072x768.Idx) :
    i ∈ ((cfg0.win 3).blk t).view.set ↔ ∀ a : Fin 2, win0_3.index t a * S2048x768.size a ≤ (i a).val
      ∧ (i a).val < win0_3.index t a * S2048x768.size a + S2048x768.size a := by
  show i ∈ ((View.whole main_v27).slice (win0_3.rect t)).set ↔ _
  rw [View.set_slice_whole, Rect.mem_set_unit]
  exact Iff.rfl

/-- Row n of the result lies in the block of point n / 2048: the sixty-four blocks tile the array. -/
theorem covered (i : S131072x768.Idx) :
    ∃ t : Fin cfg0.N, (cfg0.win 3).flush t = true ∧ i ∈ ((cfg0.win 3).blk t).view.set := by
  have hi0 : (i 0).val < 131072 := (i 0).isLt
  have hi1 : (i 1).val < 768 := (i 1).isLt
  have hN : cfg0.N = 64 := N_0
  obtain ⟨t, ht⟩ : ∃ t : Fin cfg0.N, t.val = (i 0).val / 2048 := ⟨⟨(i 0).val / 2048, by rw [hN]; omega⟩, rfl⟩
  obtain ⟨-, -, -, -, -, -, e6, e7⟩ := block_indices t
  refine ⟨t, flush0_3 t, ?_⟩
  rw [mem_block]
  intro a
  match a with
  | ⟨0, _⟩ =>
    show win0_3.index t (0 : Fin 2) * 2048 ≤ (i 0).val ∧ (i 0).val < win0_3.index t (0 : Fin 2) * 2048 + 2048
    rw [e6, ht]; omega
  | ⟨1, _⟩ =>
    show win0_3.index t (1 : Fin 2) * 768 ≤ (i 1).val ∧ (i 1).val < win0_3.index t (1 : Fin 2) * 768 + 768
    rw [e7]; omega

/-- The result array after the region: the whole product plus the bias. -/
theorem region_result (c : Dev nD) :
    (pdat m 0 c).arrAt 3 cfg0.N = affine (rowsArr m c) (weightsArr m c) (biasArr m c) :=
  (pdat m 0 c).arrAt_eq_of_cover 3 (affine (rowsArr m c) (weightsArr m c) (biasArr m c)) (fun t _ => flushed_eq m c t) covered

/-! ## The three staged arrays, through the host operations before the region -/

/-- The gathered patches, [32, 4096, 1, 16, 16], as a function of the image and the two index arrays: the image padded
    by twelve zeros on each side of its two spatial axes, the start indices the sums of the two index arrays (a negative
    one shifted by the padded extent), and the gather of one 16 by 16 window per (batch, token). -/
def patches (x0 : FVec Ideal S32x1x512x512 .f32) (x1 x2 : IVec S32x4096x2 32) : FVec Ideal S32x4096x1x16x16 .f32 :=
  Host.gather gather_S32x1x536x536_S32x4096x3_S32x4096x1x16x16_234_n_0_0_123_2_111616 (pad S32x1x536x536 ![0, 0, 12, 12] ![0, 0, 12, 12] ![0, 0, 0, 0] x0 (sitofp .f32 (constantI S_ 32 0#32)) pads_S32x1x512x512_S32x1x536x536_000_000_12120_12120 h_S_) (concatenate S32x4096x3 2 [⟨S32x4096x1, (broadcastInDim S32x4096x1 ![1, 2] bcast_S4096x1_S32x4096x1_1_2 (broadcastInDim S4096x1 ![] bcast_S_S4096x1 (constantI S_ 32 0#32)))⟩, ⟨S32x4096x1, (broadcastInDim S32x4096x1 ![0, 1] bcast_S32x4096_S32x4096x1_0_1 (select (cmpi .slt (shapeCast _ (extractStridedSlice S32x4096x1 ![0, 0, 1] (addi x1 x2) slices_S32x4096x2_S32x4096x1_0_0_1) shapeCasts_S32x4096x1_S32x4096) (broadcastInDim S32x4096 ![] bcast_S_S32x4096 (constantI S_ 32 0#32))) (addi (shapeCast _ (extractStridedSlice S32x4096x1 ![0, 0, 1] (addi x1 x2) slices_S32x4096x2_S32x4096x1_0_0_1) shapeCasts_S32x4096x1_S32x4096) (broadcastInDim S32x4096 ![] bcast_S_S32x4096 (constantI S_ 32 536#32))) (shapeCast _ (extractStridedSlice S32x4096x1 ![0, 0, 1] (addi x1 x2) slices_S32x4096x2_S32x4096x1_0_0_1) shapeCasts_S32x4096x1_S32x4096)))⟩, ⟨S32x4096x1, (broadcastInDim S32x4096x1 ![0, 1] bcast_S32x4096_S32x4096x1_0_1 (select (cmpi .slt (shapeCast _ (extractStridedSlice S32x4096x1 ![0, 0, 0] (addi x1 x2) slices_S32x4096x2_S32x4096x1_0_0_0) shapeCasts_S32x4096x1_S32x4096) (broadcastInDim S32x4096 ![] bcast_S_S32x4096 (constantI S_ 32 0#32))) (addi (shapeCast _ (extractStridedSlice S32x4096x1 ![0, 0, 0] (addi x1 x2) slices_S32x4096x2_S32x4096x1_0_0_0) shapeCasts_S32x4096x1_S32x4096) (broadcastInDim S32x4096 ![] bcast_S_S32x4096 (constantI S_ 32 536#32))) (shapeCast _ (extractStridedSlice S32x4096x1 ![0, 0, 0] (addi x1 x2) slices_S32x4096x2_S32x4096x1_0_0_0) shapeCasts_S32x4096x1_S32x4096)))⟩] concatenates_S32x4096x1_S32x4096x1_S32x4096x1_S32x4096x3_d2)

theorem rowsArr_eq (c : Dev nD) :
    rowsArr m c = truncf .bf16 (shapeCast S131072x256 (patches (m ((c.tc : Thread nD τ).loc main_arg0))
      (m ((c.tc : Thread nD τ).loc main_arg1)) (m ((c.tc : Thread nD τ).loc main_arg2))) shapeCasts_S32x4096x1x16x16_S131072x256) bitsLt_bf16_f32 := by
  dsimp only [rowsArr, atEntry, entryVal]
  simp only [hostOps0, hostOps0_1, hostOps0_2, List.flatten_cons, List.flatten_nil, List.append_nil, List.cons_append, List.nil_append]
  simp (disch := decide) only [StableHlo.after_cons, StableHlo.after_nil,
      StableHlo.nullary_result', StableHlo.unary_result', StableHlo.binary_result', StableHlo.ternary_result', StableHlo.reshape_result', StableHlo.nary3_result',
      StableHlo.nullary_result_ne', StableHlo.unary_result_ne', StableHlo.binary_result_ne', StableHlo.ternary_result_ne', StableHlo.reshape_result_ne',
      StableHlo.nary_result_ne']
  rfl

theorem weightsArr_eq (c : Dev nD) :
    weightsArr m c = (truncf .bf16 (transpose S256x768 [1, 0] (m ((c.tc : Thread nD τ).loc main_arg3)) transposes_S768x256_S256x768_1_0) bitsLt_bf16_f32 : FVec Ideal S256x768 .bf16) := by
  dsimp only [weightsArr, atEntry, entryVal]
  simp only [hostOps0, hostOps0_1, hostOps0_2, List.flatten_cons, List.flatten_nil, List.append_nil, List.cons_append, List.nil_append]
  after_results

theorem biasArr_eq (c : Dev nD) :
    biasArr m c = shapeCast S1x768 (m ((c.tc : Thread nD τ).loc main_arg4)) shapeCasts_S768_S1x768 := by
  dsimp only [biasArr, atEntry, entryVal]
  simp only [hostOps0, hostOps0_1, hostOps0_2, List.flatten_cons, List.flatten_nil, List.append_nil, List.cons_append, List.nil_append]
  after_results
  rfl

/-! ## The program's result -/

/-- The result buffer after the closing reshape: the region's result array re-laid as [32, 4096, 1, 768]. -/
theorem result_eq (c : Dev nD) :
    Pipeline.afterTail₀ cfgs (pdat m) 0 (entryVal m) [hostOps1] c main_v28
      = shapeCast S32x4096x1x768 (affine (rowsArr m c) (weightsArr m c) (biasArr m c)) shapeCasts_S131072x768_S32x4096x1x768 := by
  unfold Pipeline.afterTail₀
  show StableHlo.after hostOps1 _ (Proc.devRef .tc main_v28) = _
  after_results
  have e : Pipeline.withArrays (cfgs 0).spec c (entryVal m c) (fun w => (pdat m 0 c).arrAt w (cfgs 0).N) (Proc.devRef .tc main_v27)
      = affine (rowsArr m c) (weightsArr m c) (biasArr m c) :=
    (Pipeline.withArrays_arr spec0 launch0.win.arr_inj c _ _ 3).trans (region_result m c)
  rw [e]
  rfl

/-- The kernel's program runs to the end with its result at the product-plus-bias of the three staged arrays, re-laid,
    and its five arguments unchanged. -/
theorem run_value : θ_run defs (onTc (τ := τ) (main (F := Ideal))) ⟨m, fun _ => 0, ρ⟩ (fun r => ∀ c : Dev nD,
      r.2.mem ((c.tc : Thread nD τ).loc main_v28)
        = shapeCast S32x4096x1x768 (affine (rowsArr m c) (weightsArr m c) (biasArr m c)) shapeCasts_S131072x768_S32x4096x1x768
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v28 (Pipeline.mem_restRefs_of main_v28 (by decide) (by decide))).trans (result_eq m c),
      ((h c).2 main_arg0 (Pipeline.mem_restRefs_of main_arg0 (by decide) (by decide))).trans
        ((atExit_of_arg m (pdat m) c main_arg0 (by decide) (by decide)).trans (atEntry_arg0 m c)),
      ((h c).2 main_arg1 (Pipeline.mem_restRefs_of main_arg1 (by decide) (by decide))).trans
        ((atExit_of_arg m (pdat m) c main_arg1 (by decide) (by decide)).trans (atEntry_arg1 m c)),
      ((h c).2 main_arg2 (Pipeline.mem_restRefs_of main_arg2 (by decide) (by decide))).trans
        ((atExit_of_arg m (pdat m) c main_arg2 (by decide) (by decide)).trans (atEntry_arg2 m c)),
      ((h c).2 main_arg3 (Pipeline.mem_restRefs_of main_arg3 (by decide) (by decide))).trans
        ((atExit_of_arg m (pdat m) c main_arg3 (by decide) (by decide)).trans (atEntry_arg3 m c)),
      ((h c).2 main_arg4 (Pipeline.mem_restRefs_of main_arg4 (by decide) (by decide))).trans
        ((atExit_of_arg m (pdat m) c main_arg4 (by decide) (by decide)).trans (atEntry_arg4 m c))⟩)
    (run_main m ρ)

/-! ## The result as a function of the five arguments -/

/-- The kernel's result: patches as rows, times the transposed weights, plus the bias row, re-laid. -/
def resultOf (x0 : FVec Ideal S32x1x512x512 .f32) (x1 x2 : IVec S32x4096x2 32) (x3 : FVec Ideal S768x256 .f32) (x4 : FVec Ideal S768 .f32) :
    FVec Ideal S32x4096x1x768 .f32 :=
  shapeCast S32x4096x1x768
    (affine (truncf .bf16 (shapeCast S131072x256 (patches x0 x1 x2) shapeCasts_S32x4096x1x16x16_S131072x256) bitsLt_bf16_f32 : FVec Ideal S131072x256 .bf16)
      (truncf .bf16 (transpose S256x768 [1, 0] x3 transposes_S768x256_S256x768_1_0) bitsLt_bf16_f32 : FVec Ideal S256x768 .bf16)
      (shapeCast S1x768 x4 shapeCasts_S768_S1x768))
    shapeCasts_S131072x768_S32x4096x1x768

theorem result_of_args (c : Dev nD) :
    shapeCast S32x4096x1x768 (affine (rowsArr m c) (weightsArr m c) (biasArr m c)) shapeCasts_S131072x768_S32x4096x1x768
      = resultOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [rowsArr_eq, weightsArr_eq, biasArr_eq]
  rfl

/-- The result at (b, t, 0, e): patch (b, t), read in row-major order of its 16 by 16 window, contracted against row e
    of the weight matrix, plus entry e of the bias. -/
theorem resultOf_apply (x0 : FVec Ideal S32x1x512x512 .f32) (x1 x2 : IVec S32x4096x2 32) (x3 : FVec Ideal S768x256 .f32) (x4 : FVec Ideal S768 .f32)
    (a : Fin 32) (b : Fin 4096) (z : Fin 1) (e : Fin 768) :
    resultOf x0 x1 x2 x3 x4 (ix4 a b z e)
      = (∑ k : Fin 256, patches x0 x1 x2 (ix5 a b (0 : Fin 1) (⟨k.val / 16, by have := k.isLt; omega⟩ : Fin 16) (⟨k.val % 16, by omega⟩ : Fin 16))
            * x3 (ix2 e k))
        + x4 (ix1 e) := by
  have ha := a.isLt; have hb := b.isLt; have hz := z.isLt; have he := e.isLt
  have hn : a.val * 4096 + b.val < 131072 := by omega
  unfold resultOf
  generalize patches x0 x1 x2 = P
  refine (shapeCast_apply _ shapeCasts_S131072x768_S32x4096x1x768 (ix4 a b z e) (ix2 (⟨a.val * 4096 + b.val, hn⟩ : Fin 131072) e) ?_).trans ?_
  · rw [Shape.rowMajor_val_two, Shape.rowMajor_val_four]
    show (a.val * 4096 + b.val) * 768 + e.val = ((a.val * 4096 + b.val) * 1 + z.val) * 768 + e.val
    omega
  rw [affine_ix2]
  refine congrArg₂ (· + ·) (Finset.sum_congr rfl fun k _ => congrArg₂ (· * ·) ?_ ?_) ?_
  · have hk := k.isLt
    show shapeCast S131072x256 P shapeCasts_S32x4096x1x16x16_S131072x256 (ix2 (⟨a.val * 4096 + b.val, hn⟩ : Fin 131072) k) = _
    refine shapeCast_apply P shapeCasts_S32x4096x1x16x16_S131072x256 _ _ ?_
    rw [Shape.rowMajor_val_five, Shape.rowMajor_val_two]
    show (((a.val * 4096 + b.val) * 1 + 0) * 16 + k.val / 16) * 16 + k.val % 16 = (a.val * 4096 + b.val) * 256 + k.val
    omega
  · show transpose S256x768 [1, 0] x3 transposes_S768x256_S256x768_1_0 (ix2 k e) = _
    exact transpose_apply [1, 0] x3 transposes_S768x256_S256x768_1_0 (ix2 k e) (ix2 e k) (fun b => match b with
      | ⟨0, _⟩ => rfl
      | ⟨1, _⟩ => rfl)
  · refine shapeCast_apply x4 shapeCasts_S768_S1x768 (ix2 (0 : Fin 1) e) (ix1 e) ?_
    rw [Shape.rowMajor_val_one, Shape.rowMajor_val_two]
    show e.val = 0 * 768 + e.val
    omega

end Cert.KernelIdeal.Result

end
-- ==== Proof.RefRead.lean ====
/-
  The reference's run and its stages read one operation at a time (the generated run and read-at-an-index modules),
  gathered under one import for the modules that compare the two programs.
-/
import proofs.«164796_j17205638988437_1_alg».proof.Proof.Gen.ReferenceIdeal.Run
import proofs.«164796_j17205638988437_1_alg».proof.Proof.Gen.ReferenceIdeal.Read
-- ==== Proof.Agreement.lean ====
/-
  The two programs compute one function of the five arguments. The kernel's result at (b, t, 0, e) is entry
  (4096 b + t, e) of the rows-times-weights-plus-bias array: Σ_k X(4096 b + t, k) · W(k, e) + bias(0, e), where row
  4096 b + t of X is patch (b, t) flattened, W(k, e) is the weight matrix's entry (e, k), and bias(0, e) is the bias
  vector's entry e. The reference contracts patch (b, t), flattened the same way, against row e of the weight matrix
  and adds entry e of the bias. The two sums have the same terms in the same order; the patches are the same gather of
  the same padded image at the same start indices, taken whole and never opened.
-/
import proofs.«164796_j17205638988437_1_alg».proof.Proof.KiValue
import proofs.«164796_j17205638988437_1_alg».proof.Proof.RefRead
import Idealize.ShloMosaic.Lib.Pipeline.Value
import Idealize.ShloMosaic.Lib.ValueIdx
import Idealize.ShloMosaic.PureOps.Ideal.Laws

set_option maxRecDepth 16384

noncomputable section

open scoped BigOperators

namespace Cert.Agreement

open Idealize.ShloMosaic Idealize.ShloMosaic.TcCoe Idealize.SL.Sem Idealize.ShloMosaic.ValueIdx
open Cert.ReferenceIdeal.Read

/-- The reference's result at an index: patch (b, t) contracted against row e of the weights, plus entry e of the bias. -/
theorem reference_apply (x0 : FVec Ideal Cert.ReferenceIdeal.S32x1x512x512 .f32) (x1 x2 : IVec Cert.ReferenceIdeal.S32x4096x2 32)
    (x3 : FVec Ideal Cert.ReferenceIdeal.S768x256 .f32) (x4 : FVec Ideal Cert.ReferenceIdeal.S768 .f32)
    (i : Cert.ReferenceIdeal.S32x4096x1x768.Idx) :
    val_main_v26 (F := Ideal) x0 x1 x2 x3 x4 i
      = (∑ k : Fin 256, val_main_v21 (F := Ideal) x0 x1 x2 (idx_main_v22 (lidx_main_v23 i k)) * x3 (ridx_main_v23 i k))
        + x4 (idx_main_v24 (idx_main_v25 i)) := by
  rw [val_main_v26_apply, val_main_v23_apply, val_main_v25_apply, val_main_v24_apply]
  simp only [val_main_v22_apply]
  rfl

/-- The kernel's and the reference's patches are one function: the same operations on the same arguments. -/
theorem same_patches (x0 : FVec Ideal Cert.KernelIdeal.S32x1x512x512 .f32) (x1 x2 : IVec Cert.KernelIdeal.S32x4096x2 32) :
    Cert.KernelIdeal.Result.patches x0 x1 x2 = val_main_v21 (F := Ideal) x0 x1 x2 := rfl

open Cert.KernelIdeal.Result (patches resultOf resultOf_apply)

/-- The kernel's result and the reference's are one function of the five arguments, entry by entry. -/
theorem results_agree (x0 : FVec Ideal Cert.KernelIdeal.S32x1x512x512 .f32) (x1 x2 : IVec Cert.KernelIdeal.S32x4096x2 32)
    (x3 : FVec Ideal Cert.KernelIdeal.S768x256 .f32) (x4 : FVec Ideal Cert.KernelIdeal.S768 .f32) :
    resultOf x0 x1 x2 x3 x4 = val_main_v26 (F := Ideal) x0 x1 x2 x3 x4 := by
  funext i
  obtain ⟨a, b, z, e, rfl⟩ : ∃ (a : Fin 32) (b : Fin 4096) (z : Fin 1) (e : Fin 768), i = ix4 a b z e :=
    ⟨i 0, i 1, i 2, i 3, eq_ix4 i⟩
  have ha := a.isLt; have hb := b.isLt; have hz := z.isLt; have he := e.isLt
  rw [resultOf_apply, reference_apply, same_patches]
  refine congrArg₂ (· + ·) (Finset.sum_congr rfl fun k _ => congrArg₂ (· * ·) (congrArg _ ?_) (congrArg _ ?_)) (congrArg _ ?_)
  · have hk := k.isLt
    funext ax; apply Fin.ext
    match ax with
    | ⟨0, _⟩ => show a.val = (((a.val * 4096 + b.val) * 1 + z.val) * 256 + k.val) / 1048576; omega
    | ⟨1, _⟩ => show b.val = (((a.val * 4096 + b.val) * 1 + z.val) * 256 + k.val) / 256 % 4096; omega
    | ⟨2, _⟩ => rfl
    | ⟨3, _⟩ => show k.val / 16 = (((a.val * 4096 + b.val) * 1 + z.val) * 256 + k.val) / 16 % 16; omega
    | ⟨4, _⟩ => show k.val % 16 = (((a.val * 4096 + b.val) * 1 + z.val) * 256 + k.val) % 16; omega
  · funext ax; apply Fin.ext
    match ax with
    | ⟨0, _⟩ => rfl
    | ⟨1, _⟩ => rfl
  · funext ax; apply Fin.ext
    match ax with
    | ⟨0, _⟩ => rfl

end Cert.Agreement

end
-- ==== Proof.lean ====
/-
  The certificate's claim. The kernel pads the image, gathers one 16 by 16 patch per (batch, token) at data-dependent
  start indices on the host, flattens the patches into rows, and multiplies the rows by the transposed weight matrix in
  a pipelined matmul region that also adds the bias; the reference does the same gather and contracts the flattened
  patches against the weight matrix with one host dot_general, then adds the bias. Over the extended reals the change of
  float format before the matmul is the identity, the matmul into a zero accumulator is the plain sum of products, and
  both results are   Σ_k patch(b, t)[k] · W(e, k) + bias(e)   with the same terms in the same order: no algebraic law
  beyond reading both sides entry by entry is needed, so the precondition is never opened.
  The three programs' runs: the kernel's two (word level and idealized) by the region's run around its host operations,
  the reference's by its host operations' run.
-/
import proofs.«164796_j17205638988437_1_alg».proof.Defs
import proofs.«164796_j17205638988437_1_alg».proof.Proof.Gen.Kernel
import proofs.«164796_j17205638988437_1_alg».proof.Proof.Gen.KernelIdeal
import proofs.«164796_j17205638988437_1_alg».proof.Proof.Gen.ReferenceIdeal
import proofs.«164796_j17205638988437_1_alg».proof.Proof.Gen.Pre_finite_inputs
import proofs.«164796_j17205638988437_1_alg».proof.Proof.KbRegion
import proofs.«164796_j17205638988437_1_alg».proof.Proof.KiRegion
import proofs.«164796_j17205638988437_1_alg».proof.Proof.KiValue
import proofs.«164796_j17205638988437_1_alg».proof.Proof.RefRead
import proofs.«164796_j17205638988437_1_alg».proof.Proof.Agreement
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_kernel : Cert.frame_Kernel := fun m ρ _ => Cert.Kernel.Region.args_kept (F := Bits) m ρ

/-- So does the idealized kernel. -/
theorem frame_kernelIdeal : Cert.frame_KernelIdeal := fun m ρ _ => Cert.KernelIdeal.Region.args_kept (F := Ideal) m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the same result: the kernel's is `resultOf` of its arguments, the reference's its
    last stage of arguments that agree, and the two are one function. -/
theorem algebraic : Cert.algebraic_KernelIdeal_ReferenceIdeal := by
  intro m ρ m' ρ' _ hagree
  refine ⟨fun c => Cert.KernelIdeal.Result.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Result.result_of_args m c), (h c).2⟩)
      (Cert.KernelIdeal.Result.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, (hagree c).1, (hagree c).2.1, (hagree c).2.2.1, (hagree c).2.2.2.1,
      (hagree c).2.2.2.2]
    exact (Cert.Agreement.results_agree _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
